-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x256 : Shape := ⟨2, ![10000, 256]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S20000x32 : Shape := ⟨2, ![20000, 32]⟩
abbrev S20000x16 : Shape := ⟨2, ![20000, 16]⟩
abbrev S3300000x16 : Shape := ⟨2, ![3300000, 16]⟩
abbrev S1x16 : Shape := ⟨2, ![1, 16]⟩

abbrev nBuf : Space → Nat
  | .hbm => 82
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x32, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x16, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x16, .f32⟩
  | .hbm, ⟨72, _⟩ => ⟨S3300000x1, .f32⟩
  | .hbm, ⟨73, _⟩ => ⟨S3300000x16, .f32⟩
  | .hbm, ⟨74, _⟩ => ⟨S3300000x16, .f32⟩
  | .hbm, ⟨75, _⟩ => ⟨S_, .f32⟩
  | .hbm, ⟨76, _⟩ => ⟨S100000x16, .f32⟩
  | .hbm, ⟨77, _⟩ => ⟨S3300000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x16, .f32⟩
  | .local _ .vmem, ⟨0, _⟩ => ⟨S10000x256, .f32⟩
  | .local _ .vmem, ⟨1, _⟩ => ⟨S10000x256, .f32⟩
  | .local _ .vmem, ⟨2, _⟩ => ⟨S256x32, .f32⟩
  | .local _ .vmem, ⟨3, _⟩ => ⟨S10000x32, .f32⟩
  | .local _ .vmem, ⟨4, _⟩ => ⟨S10000x32, .f32⟩
  | .local _ .vmem, ⟨5, _⟩ => ⟨S20000x32, .f32⟩
  | .local _ .vmem, ⟨6, _⟩ => ⟨S20000x32, .f32⟩
  | .local _ .vmem, ⟨7, _⟩ => ⟨S32x16, .f32⟩
  | .local _ .vmem, ⟨8, _⟩ => ⟨S20000x16, .f32⟩
  | .local _ .vmem, ⟨9, _⟩ => ⟨S20000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  inb_S32x16_S32x16_0_0 : ∀ a, (![0, 0] : Fin 2 → Nat) a + S32x16.size a ≤ S32x16.size a
  h_S32x16 : 0 < S32x16.numel
  inb_S20000x16_S20000x16_0_0 : ∀ a, (![0, 0] : Fin 2 → Nat) a + S20000x16.size a ≤ S20000x16.size a
  h_S20000x16 : 0 < S20000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x32_S10000x32_1_0_0_1_n_n_wf : DotDims.WF S10000x256 S256x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S20000x32_S32x16_S20000x16_1_0_0_1_n_n_wf : DotDims.WF S20000x32 S32x16 S20000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S100000x16.size a
  hwx1_2 : ∀ i : grid1.Coords, EltTy.bits .f32 = 32 ∨ (Rect.block (s := S100000x16) S20000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x32_S10000x32_1_0_0_1_n_n : DotDims S10000x256 S256x32 S10000x32 where
  lhsContracting := [1]
  rhsContracting := [0]
  lhsNonContracting := [0]
  rhsNonContracting := [1]
  lhsBatch := []
  rhsBatch := []
  wf := dot_S10000x256_S256x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x16, .f32⟩
  | .hbm, ⟨63, _⟩ => ⟨S_, .f32⟩
  | .hbm, ⟨64, _⟩ => ⟨S3300000, .f32⟩
  | .hbm, ⟨65, _⟩ => ⟨S_, .f32⟩
  | .hbm, ⟨66, _⟩ => ⟨S100000, .f32⟩
  | .hbm, ⟨67, _⟩ => ⟨S3300000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x16, .f32⟩
  | .hbm, ⟨98, _⟩ => ⟨S3300000x1, .f32⟩
  | .hbm, ⟨99, _⟩ => ⟨S3300000x16, .f32⟩
  | .hbm, ⟨100, _⟩ => ⟨S3300000x16, .f32⟩
  | .hbm, ⟨101, _⟩ => ⟨S_, .f32⟩
  | .hbm, ⟨102, _⟩ => ⟨S100000x16, .f32⟩
  | .hbm, ⟨103, _⟩ => ⟨S3300000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Spec.lean ====
/-
  The graph-convolution encoder as ONE function of the six arguments, built from the pieces both programs share.

  The edge list `ei : i32[2, 3200000]` gives every edge's source (row 0) and destination (row 1); the self-loops
  (v, v) for v = 0 … 99999 are appended to both, so an edge index runs over 3300000 edges (`src`, `dst`). An end that
  is negative is moved up by the number of nodes (`wrap`: the convention of an indexed read). The degree of a node is
  the number of edges that END there, a scatter-add of ones over `dst`; `dinv` is its reciprocal square root, and the
  coefficient of an edge is `dinv[src] * dinv[dst]` (`coef`). A layer (`conv32`, `conv16`) takes the projected
  features `h`, reads row `src e` for each edge `e`, scales it by the edge's coefficient, adds the scaled rows up at row
  `dst e`, and adds the bias to every row. The encoder (`gcn`) is: project by `w1`, layer, maximum with zero, project
  by `w2`, layer. Everything here is generic in the float instance; no operation is opened.
-/
import proofs.«167598_j67654324846925_1_alg».proof.ReferenceIdeal

noncomputable section

namespace Cert.Gcn

open Cert.ReferenceIdeal Cert.ReferenceIdeal.Facts₀ Cert.ReferenceIdeal.Facts Idealize.ShloMosaic

variable {F : FTy → Type} [FloatOps F] [Cert.ReferenceIdeal.Facts]

/-- The source end of every edge: row 0 of the edge list, then the self-loops' 0, 1, …, 99999. -/
def src (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The destination end of every edge: row 1 of the edge list, then the self-loops' 0, 1, …, 99999. -/
def dst (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative node index counts from the end: `v + 100000` where `v < 0`, else `v`. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- One over the square root of each node's in-degree (ones added up at the destination ends). -/
def dinv (d : (⟨S3300000, .i32⟩ : BufTy).Contents (Elt F)) : (⟨S100000, .f32⟩ : BufTy).Contents (Elt F) :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32)))

/-- Each edge's coefficient: `dinv` at its source times `dinv` at its destination. -/
def coef (s d : (⟨S3300000, .i32⟩ : BufTy).Contents (Elt F)) : (⟨S3300000, .f32⟩ : BufTy).Contents (Elt F) :=
  mulf (Host.gather gather_S100000_S3300000x1_S3300000_n_0_n_n_0_1_1 (dinv d) (broadcastInDim S3300000x1 ![0] bcast_S3300000_S3300000x1_0 (wrap s))) (Host.gather gather_S100000_S3300000x1_S3300000_n_0_n_n_0_1_1 (dinv d) (broadcastInDim S3300000x1 ![0] bcast_S3300000_S3300000x1_0 (wrap d)))

/-- The first layer's aggregation on 32 features: rows of `h` read at the source ends, scaled by the edge coefficients,
    added up at the destination ends, plus the bias `b` on every row. -/
def conv32 (h : (⟨S100000x32, .f32⟩ : BufTy).Contents (Elt F)) (s d : (⟨S3300000, .i32⟩ : BufTy).Contents (Elt F))
    (n : (⟨S3300000, .f32⟩ : BufTy).Contents (Elt F)) (b : (⟨S32, .f32⟩ : BufTy).Contents (Elt F)) : (⟨S100000x32, .f32⟩ : BufTy).Contents (Elt F) :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 h (broadcastInDim S3300000x1 ![0] bcast_S3300000_S3300000x1_0 (wrap s))) (broadcastInDim S3300000x32 ![0, 1] bcast_S3300000x1_S3300000x32_0_1 (broadcastInDim S3300000x1 ![0] bcast_S3300000_S3300000x1_0 n)))) (broadcastInDim S100000x32 ![0, 1] bcast_S1x32_S100000x32_0_1 (broadcastInDim S1x32 ![1] bcast_S32_S1x32_1 b))

/-- The maximum with zero, entry by entry, between the two layers. -/
def relu32 (z : (⟨S100000x32, .f32⟩ : BufTy).Contents (Elt F)) : (⟨S100000x32, .f32⟩ : BufTy).Contents (Elt F) :=
  maximumf z (broadcastInDim S100000x32 ![] bcast_S_S100000x32 (constant S_ .f32 0x00000000#32))

/-- The second layer's aggregation, on 16 features. -/
def conv16 (h : (⟨S100000x16, .f32⟩ : BufTy).Contents (Elt F)) (s d : (⟨S3300000, .i32⟩ : BufTy).Contents (Elt F))
    (n : (⟨S3300000, .f32⟩ : BufTy).Contents (Elt F)) (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 n)))) (broadcastInDim S100000x16 ![0, 1] bcast_S1x16_S100000x16_0_1 (broadcastInDim S1x16 ![1] bcast_S16_S1x16_1 b))

/-- The whole encoder from projected features onward: `p1 = x · w1` and `p2 ↦ (·) · w2` are left as parameters so that either
    way of computing the two matrix products can be plugged in. -/
def encode (p1 : (⟨S100000x32, .f32⟩ : BufTy).Contents (Elt F))
    (proj2 : (⟨S100000x32, .f32⟩ : BufTy).Contents (Elt F) → (⟨S100000x16, .f32⟩ : BufTy).Contents (Elt F))
    (ei : (⟨S2x3200000, .i32⟩ : BufTy).Contents (Elt F)) (b1 : (⟨S32, .f32⟩ : BufTy).Contents (Elt F))
    (b2 : (⟨S16, .f32⟩ : BufTy).Contents (Elt F)) : (⟨S100000x16, .f32⟩ : BufTy).Contents (Elt F) :=
  conv16 (proj2 (relu32 (conv32 p1 (src ei) (dst ei) (coef (src ei) (dst ei)) b1))) (src ei) (dst ei) (coef (src ei) (dst ei)) b2

end Cert.Gcn

end
-- ==== Proof.Walk.lean ====
/-
  What each buffer holds at each boundary of the program's run. The run's contents at the boundaries are a fold from the
  launch memory: a host stretch applies its operations to what it finds, a kernel region replaces its result array and
  leaves everything else. Reading the fold at the buffers that matter:
  * after the first stretch the two edge-end vectors and the edge coefficients are `src`, `dst` and `coef` of the edge list;
    no later stretch and no region writes them, nor any argument, so they are the same at every later boundary;
  * the first region's result array is what its write-backs leave; the stretch after it aggregates that array (`conv32`),
    and the outlined maximum with zero follows (`relu32`);
  * the second region's result array is what its write-backs leave, and the last stretch aggregates it (`conv16`).
  Generic in the float instance: nothing is computed here, buffers are only followed.
-/
import proofs.«167598_j67654324846925_1_alg».proof.Proof.Gen.KernelIdeal.Frame
import proofs.«167598_j67654324846925_1_alg».proof.Proof.Gen.ReferenceIdeal
import proofs.«167598_j67654324846925_1_alg».proof.Proof.Spec

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem
open Idealize.ShloMosaic.StableHlo
open Idealize.ShloMosaic.Pipeline (Dat)
open Cert.Gcn

variable {F : FTy → Type} [FloatOps F]
variable (m : (ℓ : Loc nD τ sig) → Buf (Elt F) ℓ) (ρ : Dev nD → PrngReg)

/-- A host stretch leaves a buffer none of its operations writes as it found it. -/
local macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the first host stretch -/

theorem w1_src (c : Dev nD) : W1 m ρ c (Proc.devRef .tc main_v3) = src (F := F) (m ((c : Thread nD τ).loc main_arg1)) := by
  dsimp only [W1, hostOps0]
  after_results_simp
  rfl

theorem w1_dst (c : Dev nD) : W1 m ρ c (Proc.devRef .tc main_v6) = dst (F := F) (m ((c : Thread nD τ).loc main_arg1)) := by
  dsimp only [W1, hostOps0]
  after_results_simp
  rfl

theorem w1_coef (c : Dev nD) : W1 m ρ c (Proc.devRef .tc main_v26)
    = coef (F := F) (src (F := F) (m ((c : Thread nD τ).loc main_arg1))) (dst (F := F) (m ((c : Thread nD τ).loc main_arg1))) := by
  dsimp only [W1, hostOps0]
  after_results_simp
  rfl

theorem w1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  kept_by hostOps0

theorem w1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  kept_by hostOps0

theorem w1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  kept_by hostOps0

theorem w1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  kept_by hostOps0

theorem w1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  kept_by hostOps0

/-! ## Across the first region: only its result array changes -/

/-- The first region's result array at its exit. -/
theorem w2_proj (c : Dev nD) : W2 m ρ c (Proc.devRef .tc main_v27) = (dat0 (V1 m ρ) c).arrAt 2 cfg0.N := W2_arr m ρ c 2

/-! ## The stretch after the first region, and the outlined maximum with zero -/

theorem w3_conv (c : Dev nD) : W3 m ρ c (Proc.devRef .tc main_v43)
    = conv32 (F := F) (W2 m ρ c (Proc.devRef .tc main_v27)) (W2 m ρ c (Proc.devRef .tc main_v3)) (W2 m ρ c (Proc.devRef .tc main_v6))
        (W2 m ρ c (Proc.devRef .tc main_v26)) (W2 m ρ c (Proc.devRef .tc main_arg3)) := by
  dsimp only [W3, hostOps1]
  after_results_simp
  rfl

theorem w4_relu (c : Dev nD) : W4 m ρ c (Proc.devRef .tc main_v44) = relu32 (F := F) (W3 m ρ c (Proc.devRef .tc main_v43)) := by
  dsimp only [W4, hostOps1_1]
  after_results_simp
  rfl

/-! ## Across the second region, and the last stretch -/

/-- The second region's result array at its exit. -/
theorem w5_proj (c : Dev nD) : W5 m ρ c (Proc.devRef .tc main_v45) = (dat1 (V4 m ρ) c).arrAt 2 cfg1.N := W5_arr m ρ c 2

theorem w6_conv (c : Dev nD) : W6 m ρ c (Proc.devRef .tc main_v61)
    = conv16 (F := F) (W5 m ρ c (Proc.devRef .tc main_v45)) (W5 m ρ c (Proc.devRef .tc main_v3)) (W5 m ρ c (Proc.devRef .tc main_v6))
        (W5 m ρ c (Proc.devRef .tc main_v26)) (W5 m ρ c (Proc.devRef .tc main_arg5)) := by
  dsimp only [W6, hostOps2]
  after_results_simp
  rfl

/-! ## The edge ends, the coefficients and the arguments at the later boundaries: nothing after the first stretch writes them -/

theorem w2_src (c : Dev nD) : W2 m ρ c (Proc.devRef .tc main_v3) = src (F := F) (m ((c : Thread nD τ).loc main_arg1)) :=
  (W2_of_ne m ρ c main_v3 (by decide)).trans (w1_src m ρ c)
theorem w2_dst (c : Dev nD) : W2 m ρ c (Proc.devRef .tc main_v6) = dst (F := F) (m ((c : Thread nD τ).loc main_arg1)) :=
  (W2_of_ne m ρ c main_v6 (by decide)).trans (w1_dst m ρ c)
theorem w2_coef (c : Dev nD) : W2 m ρ c (Proc.devRef .tc main_v26)
    = coef (F := F) (src (F := F) (m ((c : Thread nD τ).loc main_arg1))) (dst (F := F) (m ((c : Thread nD τ).loc main_arg1))) :=
  (W2_of_ne m ρ c main_v26 (by decide)).trans (w1_coef m ρ c)
theorem w2_arg3 (c : Dev nD) : W2 m ρ c (Proc.devRef .tc main_arg3) = m ((c : Thread nD τ).loc main_arg3) :=
  (W2_of_ne m ρ c main_arg3 (by decide)).trans (w1_arg3 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)

theorem w4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by kept_by hostOps1_1
    _ = W2 m ρ c (Proc.devRef .tc main_arg4) := by kept_by hostOps1
    _ = _ := w2_arg4 m ρ c

theorem w5_src (c : Dev nD) : W5 m ρ c (Proc.devRef .tc main_v3) = src (F := F) (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := by kept_by hostOps1_1
    _ = W2 m ρ c (Proc.devRef .tc main_v3) := by kept_by hostOps1
    _ = _ := w2_src m ρ c
theorem w5_dst (c : Dev nD) : W5 m ρ c (Proc.devRef .tc main_v6) = dst (F := F) (m ((c : Thread nD τ).loc main_arg1)) :=
  calc W5 m ρ c (Proc.devRef .tc main_v6)
    _ = W4 m ρ c (Proc.devRef .tc main_v6) := W5_of_ne m ρ c main_v6 (by decide)
    _ = W3 m ρ c (Proc.devRef .tc main_v6) := by kept_by hostOps1_1
    _ = W2 m ρ c (Proc.devRef .tc main_v6) := by kept_by hostOps1
    _ = _ := w2_dst m ρ c
theorem w5_coef (c : Dev nD) : W5 m ρ c (Proc.devRef .tc main_v26)
    = coef (F := F) (src (F := F) (m ((c : Thread nD τ).loc main_arg1))) (dst (F := F) (m ((c : Thread nD τ).loc main_arg1))) :=
  calc W5 m ρ c (Proc.devRef .tc main_v26)
    _ = W4 m ρ c (Proc.devRef .tc main_v26) := W5_of_ne m ρ c main_v26 (by decide)
    _ = W3 m ρ c (Proc.devRef .tc main_v26) := by kept_by hostOps1_1
    _ = W2 m ρ c (Proc.devRef .tc main_v26) := by kept_by hostOps1
    _ = _ := w2_coef m ρ c
theorem w5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by kept_by hostOps1_1
    _ = W2 m ρ c (Proc.devRef .tc main_arg5) := by kept_by hostOps1
    _ = _ := w2_arg5 m ρ c

end Cert.KernelIdeal.Walk

end
-- ==== Proof.Proj1.lean ====
/-
  The first projection. The program's first kernel region tiles the rows of `x : f32[100000, 256]` into ten blocks of
  10000 rows; at block `t` the body multiplies the block by the whole of `w1 : f32[256, 32]` into a zero accumulator
  (the two roundings to bf16 are the identity on exact values) and writes rows `10000 t … 10000 t + 9999` of the result.
  So entry (r, q) of the result array is the sum over k of `x (r, k) * w1 (k, q)`, where r = 10000 t + p sits in block
  t = r / 10000: the very sum the host's matrix product of the whole arrays has at (r, q). The ten row blocks tile the
  100000 rows, so the array the region leaves IS the whole product. Stated at any contents `V` the region is entered with.
-/
import proofs.«167598_j67654324846925_1_alg».proof.Proof.Gen.KernelIdeal.Frame
import proofs.«167598_j67654324846925_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Proj1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's product at an index of the block -/

theorem lhs_blk_0 (i : S10000x32.Idx) (q : dot_S10000x256_S256x32_S10000x32_1_0_0_1_n_n.contr.Idx) :
    (dot_S10000x256_S256x32_S10000x32_1_0_0_1_n_n.lhsIdx i q 0).val = (i 0).val := by
  unfold DotDims.lhsIdx
  rw [dif_neg (show ¬(0 : Fin S10000x256.rank) ∈ dot_S10000x256_S256x32_S10000x32_1_0_0_1_n_n.lhsBatch by decide), dif_pos (show (0 : Fin S10000x256.rank) ∈ dot_S10000x256_S256x32_S10000x32_1_0_0_1_n_n.lhsNonContracting by decide)]
  rfl
theorem lhs_blk_1 (i : S10000x32.Idx) (q : dot_S10000x256_S256x32_S10000x32_1_0_0_1_n_n.contr.Idx) :
    (dot_S10000x256_S256x32_S10000x32_1_0_0_1_n_n.lhsIdx i q 1).val = (q ⟨0, by decide⟩).val :=
  dot_S10000x256_S256x32_S10000x32_1_0_0_1_n_n.lhsIdx_val_of_single rfl i q
theorem rhs_blk_0 (i : S10000x32.Idx) (q : dot_S10000x256_S256x32_S10000x32_1_0_0_1_n_n.contr.Idx) :
    (dot_S10000x256_S256x32_S10000x32_1_0_0_1_n_n.rhsIdx i q 0).val = (q ⟨0, by decide⟩).val :=
  dot_S10000x256_S256x32_S10000x32_1_0_0_1_n_n.rhsIdx_val_of_single rfl i q
theorem rhs_blk_1 (i : S10000x32.Idx) (q : dot_S10000x256_S256x32_S10000x32_1_0_0_1_n_n.contr.Idx) :
    (dot_S10000x256_S256x32_S10000x32_1_0_0_1_n_n.rhsIdx i q 1).val = (i 1).val := by
  unfold DotDims.rhsIdx
  rw [dif_neg (show ¬(1 : Fin S256x32.rank) ∈ dot_S10000x256_S256x32_S10000x32_1_0_0_1_n_n.rhsBatch by decide), dif_pos (show (1 : Fin S256x32.rank) ∈ dot_S10000x256_S256x32_S10000x32_1_0_0_1_n_n.rhsNonContracting by decide)]
  rfl

/-- Row `y 0` of the block of `x`, column `k`. -/
abbrev lblk (y : S10000x32.Idx) (k : Fin 256) : S10000x256.Idx := fun a => match a with
  | ⟨0, _⟩ => ⟨(y 0).val, (y 0).isLt⟩
  | ⟨1, _⟩ => ⟨k.val, k.isLt⟩
/-- Row `k` of `w1`, column `y 1`. -/
abbrev rblk (y : S10000x32.Idx) (k : Fin 256) : S256x32.Idx := fun a => match a with
  | ⟨0, _⟩ => ⟨k.val, k.isLt⟩
  | ⟨1, _⟩ => ⟨(y 1).val, (y 1).isLt⟩

/-- The body's stored value at `y`: the sum over the 256 columns of the block's row times `w1`'s column. -/
theorem pay_apply (x0 : Vec Ideal S10000x256 .f32) (x1 : Vec Ideal S256x32 .f32) (y : S10000x32.Idx) :
    k0_pay1 (F := Ideal) x0 x1 y = ∑ k : Fin 256, x0 (lblk y k) * x1 (rblk y k) := by
  unfold k0_pay1
  simp only [matmul]
  rw [Ideal.matmul_constant_zero_apply, ← Equiv.sum_comp (ValueIdx.contrEquiv1 dot_S10000x256_S256x32_S10000x32_1_0_0_1_n_n 256 rfl rfl).symm]
  refine Finset.sum_congr rfl fun k _ => ?_
  have hk := ValueIdx.contrEquiv1_symm_val dot_S10000x256_S256x32_S10000x32_1_0_0_1_n_n 256 rfl rfl k
  have el : dot_S10000x256_S256x32_S10000x32_1_0_0_1_n_n.lhsIdx y ((ValueIdx.contrEquiv1 dot_S10000x256_S256x32_S10000x32_1_0_0_1_n_n 256 rfl rfl).symm k) = lblk y k := funext fun a => Fin.ext (by
    match a with
    | ⟨0, _⟩ => exact lhs_blk_0 _ _
    | ⟨1, _⟩ => exact (lhs_blk_1 _ _).trans hk)
  have er : dot_S10000x256_S256x32_S10000x32_1_0_0_1_n_n.rhsIdx y ((ValueIdx.contrEquiv1 dot_S10000x256_S256x32_S10000x32_1_0_0_1_n_n 256 rfl rfl).symm k) = rblk y k := funext fun a => Fin.ext (by
    match a with
    | ⟨0, _⟩ => exact (rhs_blk_0 _ _).trans hk
    | ⟨1, _⟩ => exact rhs_blk_1 _ _)
  rw [el, er]
  rfl

/-! ## The host's product at an index, for any operands -/

open Cert.ReferenceIdeal.Read in
/-- The host's product of a [100000, 256] array with a [256, 32] one, at (r, q): the sum over k of (r, k) times (k, q). -/
theorem host_prod_apply (h : FVec Ideal Cert.ReferenceIdeal.S100000x256 .f32)
    (w : FVec Ideal Cert.ReferenceIdeal.S256x32 .f32) (i : Cert.ReferenceIdeal.S100000x32.Idx) :
    Host.dotGeneral (F := Ideal) (φ₁ := .f32) (φ₂ := .f32) Cert.ReferenceIdeal.dot_S100000x256_S256x32_S100000x32_1_0_0_1_n_n none h w i
      = ∑ k : Fin 256, h (lidx_main_v7 i k) * w (ridx_main_v7 i k) := by
  simp only [Host.dotGeneral]
  rw [Ideal.dotGeneral_apply, ← Equiv.sum_comp (ValueIdx.contrEquiv1 Cert.ReferenceIdeal.dot_S100000x256_S256x32_S100000x32_1_0_0_1_n_n 256 rfl rfl).symm]
  refine Finset.sum_congr rfl fun k _ => ?_
  have hk := ValueIdx.contrEquiv1_symm_val Cert.ReferenceIdeal.dot_S100000x256_S256x32_S100000x32_1_0_0_1_n_n 256 rfl rfl k
  have el : Cert.ReferenceIdeal.dot_S100000x256_S256x32_S100000x32_1_0_0_1_n_n.lhsIdx i ((ValueIdx.contrEquiv1 Cert.ReferenceIdeal.dot_S100000x256_S256x32_S100000x32_1_0_0_1_n_n 256 rfl rfl).symm k) = lidx_main_v7 i k := funext fun a => Fin.ext (by
    match a with
    | ⟨0, _⟩ => exact lhs_main_v7_0 _ _
    | ⟨1, _⟩ => exact (lhs_main_v7_1 _ _).trans hk)
  have er : Cert.ReferenceIdeal.dot_S100000x256_S256x32_S100000x32_1_0_0_1_n_n.rhsIdx i ((ValueIdx.contrEquiv1 Cert.ReferenceIdeal.dot_S100000x256_S256x32_S100000x32_1_0_0_1_n_n 256 rfl rfl).symm k) = ridx_main_v7 i k := funext fun a => Fin.ext (by
    match a with
    | ⟨0, _⟩ => exact (rhs_main_v7_0 _ _).trans hk
    | ⟨1, _⟩ => exact rhs_main_v7_1 _ _)
  rw [el, er]

/-! ## The whole product, and each block of it -/

/-- The host's product of the two arrays the region is entered with. -/
abbrev prod (c : Dev nD) : Buf (Elt Ideal) ((c : Thread nD τ).loc main_v27) :=
  Host.dotGeneral (F := Ideal) (φ₁ := .f32) (φ₂ := .f32) Cert.ReferenceIdeal.dot_S100000x256_S256x32_S100000x32_1_0_0_1_n_n none (V c main_arg0) (V c main_arg2)

/-- Where the three windows' blocks sit at point `t`: the rows of `x` move with the rows of the result, block `t` at
    block index `t`; the columns, and both axes of `w1`, stay at block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x32) hz]
  obtain ⟨e0, e1, e2, e3, e4, e5⟩ := idx_facts t
  funext y
  show k0_pay1 (F := Ideal) (iblk0 V c 0 t) (iblk0 V c 1 t) y = prod V c (((cfg0.win 2).blk t).view.emb y)
  refine (pay_apply _ _ y).trans ?_
  refine ((host_prod_apply _ _ _).trans ?_).symm
  refine Finset.sum_congr rfl fun k _ => ?_
  have hl : V c main_arg0 (Cert.ReferenceIdeal.Read.lidx_main_v7 (((cfg0.win 2).blk t).view.emb y) k) = iblk0 V c 0 t (lblk y k) := by
    show V c main_arg0 _ = V c main_arg0 (((cfg0.win 0).blk t).view.emb (lblk y k))
    congr 1
    funext a; apply Fin.ext
    match a with
    | ⟨0, _⟩ => show win0_2.index t (0 : Fin 2) * 10000 + 1 * (y 0).val = win0_0.index t (0 : Fin 2) * 10000 + 1 * (y 0).val; omega
    | ⟨1, _⟩ => show k.val = win0_0.index t (1 : Fin 2) * 256 + 1 * k.val; omega
  have hr : V c main_arg2 (Cert.ReferenceIdeal.Read.ridx_main_v7 (((cfg0.win 2).blk t).view.emb y) k) = iblk0 V c 1 t (rblk y k) := by
    show V c main_arg2 _ = V c main_arg2 (((cfg0.win 1).blk t).view.emb (rblk y k))
    congr 1
    funext a; apply Fin.ext
    match a with
    | ⟨0, _⟩ => show k.val = win0_1.index t (0 : Fin 2) * 256 + 1 * k.val; omega
    | ⟨1, _⟩ => show win0_2.index t (1 : Fin 2) * 32 + 1 * (y 1).val = win0_1.index t (1 : Fin 2) * 32 + 1 * (y 1).val; omega
  rw [hl, hr]

/-- An index of the result is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v27).slice (win0_2.rect t)).set ↔ _
  rw [View.set_slice_whole, Rect.mem_set_unit]
  exact Iff.rfl

/-- Row `r` is written by point `r / 10000`: the ten row blocks cover the array. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  refine ⟨⟨(i 0).val / 10000, by rw [hN]; omega⟩, flush0_2 _, ?_⟩
  obtain ⟨e0, e1, e2, e3, e4, e5⟩ := idx_facts ⟨(i 0).val / 10000, by rw [hN]; omega⟩
  rw [mem_blk]
  intro a
  match a with
  | ⟨0, _⟩ => show win0_2.index _ (0 : Fin 2) * 10000 ≤ (i 0).val ∧ (i 0).val < win0_2.index _ (0 : Fin 2) * 10000 + 10000
              rw [e4]; show (i 0).val / 10000 * 10000 ≤ (i 0).val ∧ (i 0).val < (i 0).val / 10000 * 10000 + 10000; omega
  | ⟨1, _⟩ => show win0_2.index _ (1 : Fin 2) * 32 ≤ (i 1).val ∧ (i 1).val < win0_2.index _ (1 : Fin 2) * 32 + 32
              rw [e5]; omega

/-- THE ARRAY the first region leaves: the whole product of the two arrays it was entered with. -/
theorem array_eq (c : Dev nD) : (dat0 V c).arrAt 2 cfg0.N = prod V c :=
  (dat0 V c).arrAt_eq_of_cover 2 (prod V c) (fun t _ => flushed_eq V c t) (cover)

end Cert.KernelIdeal.Proj1

end
-- ==== Proof.Proj2.lean ====
/-
  The second projection. The program's second kernel region tiles the rows of the hidden features `h : f32[100000, 32]`
  into five blocks of 20000 rows; at block `t` the body multiplies the block by the whole of `w2 : f32[32, 16]` into a zero
  accumulator (a cast to the same shape and the two roundings to bf16 are the identity on exact values) and writes rows
  `20000 t … 20000 t + 19999` of the result. Entry (r, q) of the result array is therefore the sum over k of
  `h (r, k) * w2 (k, q)`: the sum the host's matrix product of the whole arrays has at (r, q). The five row blocks tile
  the 100000 rows, so the array the region leaves IS the whole product. Stated at any contents `V` the region is entered with.
-/
import proofs.«167598_j67654324846925_1_alg».proof.Proof.Gen.KernelIdeal.Frame
import proofs.«167598_j67654324846925_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Proj2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's product at an index of the block -/

theorem lhs_blk_0 (i : S20000x16.Idx) (q : dot_S20000x32_S32x16_S20000x16_1_0_0_1_n_n.contr.Idx) :
    (dot_S20000x32_S32x16_S20000x16_1_0_0_1_n_n.lhsIdx i q 0).val = (i 0).val := by
  unfold DotDims.lhsIdx
  rw [dif_neg (show ¬(0 : Fin S20000x32.rank) ∈ dot_S20000x32_S32x16_S20000x16_1_0_0_1_n_n.lhsBatch by decide), dif_pos (show (0 : Fin S20000x32.rank) ∈ dot_S20000x32_S32x16_S20000x16_1_0_0_1_n_n.lhsNonContracting by decide)]
  rfl
theorem lhs_blk_1 (i : S20000x16.Idx) (q : dot_S20000x32_S32x16_S20000x16_1_0_0_1_n_n.contr.Idx) :
    (dot_S20000x32_S32x16_S20000x16_1_0_0_1_n_n.lhsIdx i q 1).val = (q ⟨0, by decide⟩).val :=
  dot_S20000x32_S32x16_S20000x16_1_0_0_1_n_n.lhsIdx_val_of_single rfl i q
theorem rhs_blk_0 (i : S20000x16.Idx) (q : dot_S20000x32_S32x16_S20000x16_1_0_0_1_n_n.contr.Idx) :
    (dot_S20000x32_S32x16_S20000x16_1_0_0_1_n_n.rhsIdx i q 0).val = (q ⟨0, by decide⟩).val :=
  dot_S20000x32_S32x16_S20000x16_1_0_0_1_n_n.rhsIdx_val_of_single rfl i q
theorem rhs_blk_1 (i : S20000x16.Idx) (q : dot_S20000x32_S32x16_S20000x16_1_0_0_1_n_n.contr.Idx) :
    (dot_S20000x32_S32x16_S20000x16_1_0_0_1_n_n.rhsIdx i q 1).val = (i 1).val := by
  unfold DotDims.rhsIdx
  rw [dif_neg (show ¬(1 : Fin S32x16.rank) ∈ dot_S20000x32_S32x16_S20000x16_1_0_0_1_n_n.rhsBatch by decide), dif_pos (show (1 : Fin S32x16.rank) ∈ dot_S20000x32_S32x16_S20000x16_1_0_0_1_n_n.rhsNonContracting by decide)]
  rfl

/-- Row `y 0` of the block of `h`, column `k`. -/
abbrev lblk (y : S20000x16.Idx) (k : Fin 32) : S20000x32.Idx := fun a => match a with
  | ⟨0, _⟩ => ⟨(y 0).val, (y 0).isLt⟩
  | ⟨1, _⟩ => ⟨k.val, k.isLt⟩
/-- Row `k` of `w2`, column `y 1`. -/
abbrev rblk (y : S20000x16.Idx) (k : Fin 32) : S32x16.Idx := fun a => match a with
  | ⟨0, _⟩ => ⟨k.val, k.isLt⟩
  | ⟨1, _⟩ => ⟨(y 1).val, (y 1).isLt⟩

/-- The body's stored value at `y`: the sum over the 32 columns of the block's row times `w2`'s column. -/
theorem pay_apply (x0 : Vec Ideal S20000x32 .f32) (x1 : Vec Ideal S32x16 .f32) (y : S20000x16.Idx) :
    k1_pay1 (F := Ideal) x0 x1 y = ∑ k : Fin 32, x0 (lblk y k) * x1 (rblk y k) := by
  unfold k1_pay1
  simp only [matmul, shapeCast_self]
  rw [Ideal.matmul_constant_zero_apply, ← Equiv.sum_comp (ValueIdx.contrEquiv1 dot_S20000x32_S32x16_S20000x16_1_0_0_1_n_n 32 rfl rfl).symm]
  refine Finset.sum_congr rfl fun k _ => ?_
  have hk := ValueIdx.contrEquiv1_symm_val dot_S20000x32_S32x16_S20000x16_1_0_0_1_n_n 32 rfl rfl k
  have el : dot_S20000x32_S32x16_S20000x16_1_0_0_1_n_n.lhsIdx y ((ValueIdx.contrEquiv1 dot_S20000x32_S32x16_S20000x16_1_0_0_1_n_n 32 rfl rfl).symm k) = lblk y k := funext fun a => Fin.ext (by
    match a with
    | ⟨0, _⟩ => exact lhs_blk_0 _ _
    | ⟨1, _⟩ => exact (lhs_blk_1 _ _).trans hk)
  have er : dot_S20000x32_S32x16_S20000x16_1_0_0_1_n_n.rhsIdx y ((ValueIdx.contrEquiv1 dot_S20000x32_S32x16_S20000x16_1_0_0_1_n_n 32 rfl rfl).symm k) = rblk y k := funext fun a => Fin.ext (by
    match a with
    | ⟨0, _⟩ => exact (rhs_blk_0 _ _).trans hk
    | ⟨1, _⟩ => exact rhs_blk_1 _ _)
  rw [el, er]
  rfl

/-! ## The host's product at an index, for any left operand -/

open Cert.ReferenceIdeal.Read in
/-- The host's product of a [100000, 32] array with a [32, 16] one, at (r, q): the sum over k of (r, k) times (k, q). -/
theorem host_prod_apply (h : (⟨Cert.ReferenceIdeal.S100000x32, .f32⟩ : BufTy).Contents (Elt Ideal))
    (w : (⟨Cert.ReferenceIdeal.S32x16, .f32⟩ : BufTy).Contents (Elt Ideal)) (i : Cert.ReferenceIdeal.S100000x16.Idx) :
    Host.dotGeneral (F := Ideal) (φ₁ := .f32) (φ₂ := .f32) Cert.ReferenceIdeal.dot_S100000x32_S32x16_S100000x16_1_0_0_1_n_n none h w i
      = ∑ k : Fin 32, h (lidx_main_v45 i k) * w (ridx_main_v45 i k) := by
  simp only [Host.dotGeneral]
  rw [Ideal.dotGeneral_apply, ← Equiv.sum_comp (ValueIdx.contrEquiv1 Cert.ReferenceIdeal.dot_S100000x32_S32x16_S100000x16_1_0_0_1_n_n 32 rfl rfl).symm]
  refine Finset.sum_congr rfl fun k _ => ?_
  have hk := ValueIdx.contrEquiv1_symm_val Cert.ReferenceIdeal.dot_S100000x32_S32x16_S100000x16_1_0_0_1_n_n 32 rfl rfl k
  have el : Cert.ReferenceIdeal.dot_S100000x32_S32x16_S100000x16_1_0_0_1_n_n.lhsIdx i ((ValueIdx.contrEquiv1 Cert.ReferenceIdeal.dot_S100000x32_S32x16_S100000x16_1_0_0_1_n_n 32 rfl rfl).symm k) = lidx_main_v45 i k := funext fun a => Fin.ext (by
    match a with
    | ⟨0, _⟩ => exact lhs_main_v45_0 _ _
    | ⟨1, _⟩ => exact (lhs_main_v45_1 _ _).trans hk)
  have er : Cert.ReferenceIdeal.dot_S100000x32_S32x16_S100000x16_1_0_0_1_n_n.rhsIdx i ((ValueIdx.contrEquiv1 Cert.ReferenceIdeal.dot_S100000x32_S32x16_S100000x16_1_0_0_1_n_n 32 rfl rfl).symm k) = ridx_main_v45 i k := funext fun a => Fin.ext (by
    match a with
    | ⟨0, _⟩ => exact (rhs_main_v45_0 _ _).trans hk
    | ⟨1, _⟩ => exact rhs_main_v45_1 _ _)
  rw [el, er]

/-! ## The whole product, and each block of it -/

/-- The host's product of the two arrays the region is entered with. -/
abbrev prod (c : Dev nD) : Buf (Elt Ideal) ((c : Thread nD τ).loc main_v45) :=
  Host.dotGeneral (F := Ideal) (φ₁ := .f32) (φ₂ := .f32) Cert.ReferenceIdeal.dot_S100000x32_S32x16_S100000x16_1_0_0_1_n_n none (V c main_v44) (V c main_arg4)

/-- Where the three windows' blocks sit at point `t`: the rows of `h` move with the rows of the result, block `t` at
    block index `t`; the columns, and both axes of `w2`, stay at block 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole product. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  unfold out1_2
  rw [View.canon_unit_zero hz]
  simp only [View.ld_unit_zero (S := S20000x32) hz, View.ld_unit_zero (S := S32x16) hz]
  obtain ⟨e0, e1, e2, e3, e4, e5⟩ := idx_facts t
  funext y
  show k1_pay1 (F := Ideal) (iblk1 V c 0 t) (iblk1 V c 1 t) y = prod V c (((cfg1.win 2).blk t).view.emb y)
  refine (pay_apply _ _ y).trans ?_
  refine ((host_prod_apply _ _ _).trans ?_).symm
  refine Finset.sum_congr rfl fun k _ => ?_
  have hl : V c main_v44 (Cert.ReferenceIdeal.Read.lidx_main_v45 (((cfg1.win 2).blk t).view.emb y) k) = iblk1 V c 0 t (lblk y k) := by
    show V c main_v44 _ = V c main_v44 (((cfg1.win 0).blk t).view.emb (lblk y k))
    congr 1
    funext a; apply Fin.ext
    match a with
    | ⟨0, _⟩ => show win1_2.index t (0 : Fin 2) * 20000 + 1 * (y 0).val = win1_0.index t (0 : Fin 2) * 20000 + 1 * (y 0).val; omega
    | ⟨1, _⟩ => show k.val = win1_0.index t (1 : Fin 2) * 32 + 1 * k.val; omega
  have hr : V c main_arg4 (Cert.ReferenceIdeal.Read.ridx_main_v45 (((cfg1.win 2).blk t).view.emb y) k) = iblk1 V c 1 t (rblk y k) := by
    show V c main_arg4 _ = V c main_arg4 (((cfg1.win 1).blk t).view.emb (rblk y k))
    congr 1
    funext a; apply Fin.ext
    match a with
    | ⟨0, _⟩ => show k.val = win1_1.index t (0 : Fin 2) * 32 + 1 * k.val; omega
    | ⟨1, _⟩ => show win1_2.index t (1 : Fin 2) * 16 + 1 * (y 1).val = win1_1.index t (1 : Fin 2) * 16 + 1 * (y 1).val; omega
  rw [hl, hr]

/-- An index of the result is in point `t`'s block iff each coordinate is in the block's range on its axis. -/
theorem mem_blk (t : Fin cfg1.N) (i : S100000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v45).slice (win1_2.rect t)).set ↔ _
  rw [View.set_slice_whole, Rect.mem_set_unit]
  exact Iff.rfl

/-- Row `r` is written by point `r / 20000`: the five row blocks cover the array. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 5 := N_1
  refine ⟨⟨(i 0).val / 20000, by rw [hN]; omega⟩, flush1_2 _, ?_⟩
  obtain ⟨e0, e1, e2, e3, e4, e5⟩ := idx_facts ⟨(i 0).val / 20000, by rw [hN]; omega⟩
  rw [mem_blk]
  intro a
  match a with
  | ⟨0, _⟩ => show win1_2.index _ (0 : Fin 2) * 20000 ≤ (i 0).val ∧ (i 0).val < win1_2.index _ (0 : Fin 2) * 20000 + 20000
              rw [e4]; show (i 0).val / 20000 * 20000 ≤ (i 0).val ∧ (i 0).val < (i 0).val / 20000 * 20000 + 20000; omega
  | ⟨1, _⟩ => show win1_2.index _ (1 : Fin 2) * 16 ≤ (i 1).val ∧ (i 1).val < win1_2.index _ (1 : Fin 2) * 16 + 16
              rw [e5]; omega

/-- THE ARRAY the second region leaves: the whole product of the two arrays it was entered with. -/
theorem array_eq (c : Dev nD) : (dat1 V c).arrAt 2 cfg1.N = prod V c :=
  (dat1 V c).arrAt_eq_of_cover 2 (prod V c) (fun t _ => flushed_eq V c t) (cover)

end Cert.KernelIdeal.Proj2

end
-- ==== Proof.KernelValue.lean ====
/-
  The kernel program's result as one function of its arguments, at exact values. Following the result buffer back through
  the run: the last host stretch aggregates (`conv16`) the second region's array, which is the host's product of the hidden
  features with `w2`; the hidden features are the maximum with zero (`relu32`) of the first aggregation (`conv32`) of the
  first region's array, which is the host's product of `x` with `w1`; the edge ends and coefficients are those of the edge
  list throughout. That is the encoder `Cert.Gcn.encode` with the host's two products.
-/
import proofs.«167598_j67654324846925_1_alg».proof.Proof.KernelRun
import proofs.«167598_j67654324846925_1_alg».proof.Proof.Walk
import proofs.«167598_j67654324846925_1_alg».proof.Proof.Proj1
import proofs.«167598_j67654324846925_1_alg».proof.Proof.Proj2

set_option maxRecDepth 16384

noncomputable section

namespace Cert.KernelIdeal.KernelValue

open Cert.KernelIdeal Cert.KernelIdeal.Gen Cert.KernelIdeal.Walk
open Idealize.ShloMosaic Idealize.ShloMosaic.TcCoe Idealize.SL.Sem
open Cert.Gcn

variable (m : (ℓ : Loc nD τ sig) → Buf (Elt Ideal) ℓ) (ρ : Dev nD → PrngReg)

/-- The encoder of the launch memory's arguments, both products the host's. -/
abbrev result (c : Dev nD) : Buf (Elt Ideal) ((c.tc : Thread nD τ).loc main_v61) :=
  encode (F := Ideal)
    (Host.dotGeneral (F := Ideal) (φ₁ := .f32) (φ₂ := .f32) Cert.ReferenceIdeal.dot_S100000x256_S256x32_S100000x32_1_0_0_1_n_n none (m ((c.tc : Thread nD τ).loc main_arg0)) (m ((c.tc : Thread nD τ).loc main_arg2)))
    (fun h => Host.dotGeneral (F := Ideal) (φ₁ := .f32) (φ₂ := .f32) Cert.ReferenceIdeal.dot_S100000x32_S32x16_S100000x16_1_0_0_1_n_n none h (m ((c.tc : Thread nD τ).loc main_arg4)))
    (m ((c.tc : Thread nD τ).loc main_arg1)) (m ((c.tc : Thread nD τ).loc main_arg3)) (m ((c.tc : Thread nD τ).loc main_arg5))

/-- The first region's array at its exit: the host's product of `x` and `w1` as launched. -/
theorem w2_prod (c : Dev nD) : W2 m ρ c (Proc.devRef .tc main_v27)
    = Host.dotGeneral (F := Ideal) (φ₁ := .f32) (φ₂ := .f32) Cert.ReferenceIdeal.dot_S100000x256_S256x32_S100000x32_1_0_0_1_n_n none (m ((c.tc : Thread nD τ).loc main_arg0)) (m ((c.tc : Thread nD τ).loc main_arg2)) := by
  have e0 : V1 m ρ c main_arg0 = m ((c.tc : Thread nD τ).loc main_arg0) := w1_arg0 m ρ c
  have e2 : V1 m ρ c main_arg2 = m ((c.tc : Thread nD τ).loc main_arg2) := w1_arg2 m ρ c
  rw [w2_proj, Proj1.array_eq (V1 m ρ) c]
  dsimp only [Proj1.prod]
  rw [e0, e2]

/-- The hidden features the second region is entered with. -/
theorem hidden (c : Dev nD) : W4 m ρ c (Proc.devRef .tc main_v44)
    = relu32 (F := Ideal) (conv32 (F := Ideal)
        (Host.dotGeneral (F := Ideal) (φ₁ := .f32) (φ₂ := .f32) Cert.ReferenceIdeal.dot_S100000x256_S256x32_S100000x32_1_0_0_1_n_n none (m ((c.tc : Thread nD τ).loc main_arg0)) (m ((c.tc : Thread nD τ).loc main_arg2)))
        (src (F := Ideal) (m ((c.tc : Thread nD τ).loc main_arg1))) (dst (F := Ideal) (m ((c.tc : Thread nD τ).loc main_arg1)))
        (coef (F := Ideal) (src (F := Ideal) (m ((c.tc : Thread nD τ).loc main_arg1))) (dst (F := Ideal) (m ((c.tc : Thread nD τ).loc main_arg1))))
        (m ((c.tc : Thread nD τ).loc main_arg3))) := by
  rw [w4_relu, w3_conv, w2_prod, w2_src, w2_dst, w2_coef, w2_arg3]

/-- The second region's array at its exit: the host's product of the hidden features and `w2` as launched. -/
theorem w5_prod (c : Dev nD) : W5 m ρ c (Proc.devRef .tc main_v45)
    = Host.dotGeneral (F := Ideal) (φ₁ := .f32) (φ₂ := .f32) Cert.ReferenceIdeal.dot_S100000x32_S32x16_S100000x16_1_0_0_1_n_n none
        (relu32 (F := Ideal) (conv32 (F := Ideal)
        (Host.dotGeneral (F := Ideal) (φ₁ := .f32) (φ₂ := .f32) Cert.ReferenceIdeal.dot_S100000x256_S256x32_S100000x32_1_0_0_1_n_n none (m ((c.tc : Thread nD τ).loc main_arg0)) (m ((c.tc : Thread nD τ).loc main_arg2)))
        (src (F := Ideal) (m ((c.tc : Thread nD τ).loc main_arg1))) (dst (F := Ideal) (m ((c.tc : Thread nD τ).loc main_arg1)))
        (coef (F := Ideal) (src (F := Ideal) (m ((c.tc : Thread nD τ).loc main_arg1))) (dst (F := Ideal) (m ((c.tc : Thread nD τ).loc main_arg1))))
        (m ((c.tc : Thread nD τ).loc main_arg3))))
        (m ((c.tc : Thread nD τ).loc main_arg4)) := by
  have e44 : V4 m ρ c main_v44 = relu32 (F := Ideal) (conv32 (F := Ideal)
        (Host.dotGeneral (F := Ideal) (φ₁ := .f32) (φ₂ := .f32) Cert.ReferenceIdeal.dot_S100000x256_S256x32_S100000x32_1_0_0_1_n_n none (m ((c.tc : Thread nD τ).loc main_arg0)) (m ((c.tc : Thread nD τ).loc main_arg2)))
        (src (F := Ideal) (m ((c.tc : Thread nD τ).loc main_arg1))) (dst (F := Ideal) (m ((c.tc : Thread nD τ).loc main_arg1)))
        (coef (F := Ideal) (src (F := Ideal) (m ((c.tc : Thread nD τ).loc main_arg1))) (dst (F := Ideal) (m ((c.tc : Thread nD τ).loc main_arg1))))
        (m ((c.tc : Thread nD τ).loc main_arg3))) := hidden m ρ c
  have e4 : V4 m ρ c main_arg4 = m ((c.tc : Thread nD τ).loc main_arg4) := w4_arg4 m ρ c
  rw [w5_proj, Proj2.array_eq (V4 m ρ) c]
  dsimp only [Proj2.prod]
  rw [e44, e4]

/-- The result buffer at the end of the run is the encoder of the arguments. -/
theorem value (c : Dev nD) : W6 m ρ c (Proc.devRef .tc main_v61) = result m c := by
  rw [w6_conv, w5_prod, w5_src, w5_dst, w5_coef, w5_arg5]
  rfl

/-- The run of the idealized kernel program: it terminates without a fault with the result buffer at the encoder of the
    arguments and the arguments as launched. -/
theorem run : θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (value m ρ c), (h c).2⟩) (Cert.KernelIdeal.RunNamed.run_named (F := Ideal) m ρ)

end Cert.KernelIdeal.KernelValue

end
-- ==== Proof.RefValue.lean ====
/-
  The reference's result is the encoder (`Cert.Gcn.encode`) with both matrix products taken by the host: the composed term
  its run ends at lists exactly the operations of `src`, `dst`, `coef`, `conv32`, `relu32`, `conv16` in order, the edge
  coefficients spelt out once per layer from the same edge ends.
-/
import proofs.«167598_j67654324846925_1_alg».proof.Proof.Gen.ReferenceIdeal.Run
import proofs.«167598_j67654324846925_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Gcn

variable {F : FTy → Type} [FloatOps F]

/-- The reference's result term is the encoder of its arguments, each product the host's. -/
theorem res_eq (m : (ℓ : Loc nD τ sig) → Buf (Elt F) ℓ) (c : Dev nD) :
    res_main_v81 (F := F) m c
      = encode (F := F)
          (Host.dotGeneral (F := F) dot_S100000x256_S256x32_S100000x32_1_0_0_1_n_n none (m ((c.tc : Thread nD τ).loc main_arg0)) (m ((c.tc : Thread nD τ).loc main_arg2)))
          (fun h => Host.dotGeneral (F := F) dot_S100000x32_S32x16_S100000x16_1_0_0_1_n_n none h (m ((c.tc : Thread nD τ).loc main_arg4)))
          (m ((c.tc : Thread nD τ).loc main_arg1)) (m ((c.tc : Thread nD τ).loc main_arg3)) (m ((c.tc : Thread nD τ).loc main_arg5)) := by
  unfold res_main_v81
  rfl

end Cert.ReferenceIdeal.RefValue

end
-- ==== Proof.lean ====
/-
  The certificate of a two-layer graph-convolution encoder. The kernel program computes the two dense projections
  (`x · w1` on 100000 × 256 by 256 × 32, then the hidden features by `w2` on 32 × 16) in two tiled kernel regions, each
  multiplying a block of rows by the whole weight matrix into a zero accumulator, and everything else — the self-loops, the
  degrees and their reciprocal square roots, the gather of source rows, the scaling by the edge coefficients, the scatter-add
  at the destination rows, the bias, the maximum with zero — by the same host operations the reference uses; the reference
  takes the two products on the host and spells the edge coefficients out once per layer, from the same edge ends.

  At exact values a rounding to bf16 is the identity and a product into a zero accumulator is the plain sum of products, so
  each region's array is the host's product of the whole arrays (its row blocks tile the rows): both programs end at ONE term,
  the encoder `Cert.Gcn.encode` of the six arguments. No law of the extended reals beyond reindexing a finite sum is used,
  so the precondition is never opened. The idealization rewrote nothing: `preserves` is trivial.
-/
import proofs.«167598_j67654324846925_1_alg».proof.Defs
import proofs.«167598_j67654324846925_1_alg».proof.Proof.Gen.Kernel
import proofs.«167598_j67654324846925_1_alg».proof.Proof.Gen.Kernel.Frame
import proofs.«167598_j67654324846925_1_alg».proof.Proof.Gen.KernelIdeal
import proofs.«167598_j67654324846925_1_alg».proof.Proof.Gen.KernelIdeal.Frame
import proofs.«167598_j67654324846925_1_alg».proof.Proof.Gen.ReferenceIdeal
import proofs.«167598_j67654324846925_1_alg».proof.Proof.Gen.ReferenceIdeal.Run
import proofs.«167598_j67654324846925_1_alg».proof.Proof.Gen.Pre_finite_inputs
import proofs.«167598_j67654324846925_1_alg».proof.Proof.KernelValue
import proofs.«167598_j67654324846925_1_alg».proof.Proof.RefValue
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result at the encoder of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.RefValue.res_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
